-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x1000 : Shape := ⟨3, ![4096, 26, 1000]⟩
abbrev S1000x16 : Shape := ⟨2, ![1000, 16]⟩
abbrev S_ : Shape := ⟨0, ![]⟩

class Facts : Prop where
  bcast_S_S4096x26x1000 : S_.BroadcastsInDim S4096x26x1000 (![] : Fin 0 → Fin S4096x26x1000.rank)
  reducesTo_S4096x26x1000_S_d0_1_2 : S4096x26x1000.ReducesTo [0, 1, 2] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S4096x26x1000 .f32) (main_arg1 : FVec F S1000x16 .f32) : IVec S_ 1 :=
  let main_v0 : FVec F S4096x26x1000 .f32 := Host.absf main_arg0
  let main_cst : FVec F S_ .f32 := constant S_ .f32 0x7F800000#32
  let main_v1 : FVec F S4096x26x1000 .f32 := broadcastInDim S4096x26x1000 ![] bcast_S_S4096x26x1000 main_cst
  let main_v2 : IVec S4096x26x1000 1 := cmpf .olt main_v0 main_v1
  let main_c : IVec S_ 1 := constantI S_ 1 1#1
  let main_v3 : IVec S_ 1 := (fun x v => Host.reduce IntOp.andi x v reducesTo_S4096x26x1000_S_d0_1_2 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S4096x26x1000 : Shape := ⟨3, ![4096, 26, 1000]⟩
abbrev S1000x16 : Shape := ⟨2, ![1000, 16]⟩
abbrev S4096x1000x26 : Shape := ⟨3, ![4096, 1000, 26]⟩
abbrev S16x1000 : Shape := ⟨2, ![16, 1000]⟩
abbrev S4096x16x26 : Shape := ⟨3, ![4096, 16, 26]⟩
abbrev S16x1000x26 : Shape := ⟨3, ![16, 1000, 26]⟩
abbrev S16x16x26 : Shape := ⟨3, ![16, 16, 26]⟩
abbrev S1x1000x26 : Shape := ⟨3, ![1, 1000, 26]⟩
abbrev S1000x26 : Shape := ⟨2, ![1000, 26]⟩
abbrev S16x26 : Shape := ⟨2, ![16, 26]⟩
abbrev S1x16x26 : Shape := ⟨3, ![1, 16, 26]⟩
abbrev S4096x26x16 : Shape := ⟨3, ![4096, 26, 16]⟩

abbrev nBuf : Space → Nat
  | .hbm => 6
  | .vmem => 5
  | .smem => 0
  | _ => 0

abbrev bufTy : (tb : Table) → Fin (tcTables nBuf tb) → BufTy
  | .hbm, ⟨0, _⟩ => ⟨S4096x26x1000, .f32⟩
  | .hbm, ⟨1, _⟩ => ⟨S1000x16, .f32⟩
  | .hbm, ⟨2, _⟩ => ⟨S4096x1000x26, .f32⟩
  | .hbm, ⟨3, _⟩ => ⟨S16x1000, .f32⟩
  | .hbm, ⟨4, _⟩ => ⟨S4096x16x26, .f32⟩
  | .hbm, ⟨5, _⟩ => ⟨S4096x26x16, .f32⟩
  | .local _ .vmem, ⟨0, _⟩ => ⟨S16x1000x26, .f32⟩
  | .local _ .vmem, ⟨1, _⟩ => ⟨S16x1000x26, .f32⟩
  | .local _ .vmem, ⟨2, _⟩ => ⟨S16x1000, .f32⟩
  | .local _ .vmem, ⟨3, _⟩ => ⟨S16x16x26, .f32⟩
  | .local _ .vmem, ⟨4, _⟩ => ⟨S16x16x26, .f32⟩
  | _, _ => ⟨S4096x26x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x16x26 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4096x26x1000_S4096x1000x26_0_2_1 : S4096x26x1000.Transposes [0, 2, 1] S4096x1000x26
  transposes_S1000x16_S16x1000_1_0 : S1000x16.Transposes [1, 0] S16x1000
  inb_S16x1000_S16x1000_0_0 : ∀ a, (![0, 0] : Fin 2 → Nat) a + S16x1000.size a ≤ S16x1000.size a
  h_S16x1000 : 0 < S16x1000.numel
  shapeCasts_S16x1000_S16x1000 : S16x1000.ShapeCasts S16x1000
  inb_S16x1000x26_S1x1000x26_0_0_0 : ∀ a, (![0, 0, 0] : Fin 3 → Nat) a + S1x1000x26.size a ≤ S16x1000x26.size a
  h_S1x1000x26 : 0 < S1x1000x26.numel
  shapeCasts_S1x1000x26_S1000x26 : S1x1000x26.ShapeCasts S1000x26
  inb_S16x16x26_S1x16x26_0_0_0 : ∀ a, (![0, 0, 0] : Fin 3 → Nat) a + S1x16x26.size a ≤ S16x16x26.size a
  h_S1x16x26 : 0 < S1x16x26.numel
  shapeCasts_S1x16x26_S16x26 : S1x16x26.ShapeCasts S16x26
  shapeCasts_S16x26_S1x16x26 : S16x26.ShapeCasts S1x16x26
  inb_S16x1000x26_S1x1000x26_1_0_0 : ∀ a, (![1, 0, 0] : Fin 3 → Nat) a + S1x1000x26.size a ≤ S16x1000x26.size a
  inb_S16x16x26_S1x16x26_1_0_0 : ∀ a, (![1, 0, 0] : Fin 3 → Nat) a + S1x16x26.size a ≤ S16x16x26.size a
  inb_S16x1000x26_S1x1000x26_2_0_0 : ∀ a, (![2, 0, 0] : Fin 3 → Nat) a + S1x1000x26.size a ≤ S16x1000x26.size a
  inb_S16x16x26_S1x16x26_2_0_0 : ∀ a, (![2, 0, 0] : Fin 3 → Nat) a + S1x16x26.size a ≤ S16x16x26.size a
  inb_S16x1000x26_S1x1000x26_3_0_0 : ∀ a, (![3, 0, 0] : Fin 3 → Nat) a + S1x1000x26.size a ≤ S16x1000x26.size a
  inb_S16x16x26_S1x16x26_3_0_0 : ∀ a, (![3, 0, 0] : Fin 3 → Nat) a + S1x16x26.size a ≤ S16x16x26.size a
  inb_S16x1000x26_S1x1000x26_4_0_0 : ∀ a, (![4, 0, 0] : Fin 3 → Nat) a + S1x1000x26.size a ≤ S16x1000x26.size a
  inb_S16x16x26_S1x16x26_4_0_0 : ∀ a, (![4, 0, 0] : Fin 3 → Nat) a + S1x16x26.size a ≤ S16x16x26.size a
  inb_S16x1000x26_S1x1000x26_5_0_0 : ∀ a, (![5, 0, 0] : Fin 3 → Nat) a + S1x1000x26.size a ≤ S16x1000x26.size a
  inb_S16x16x26_S1x16x26_5_0_0 : ∀ a, (![5, 0, 0] : Fin 3 → Nat) a + S1x16x26.size a ≤ S16x16x26.size a
  inb_S16x1000x26_S1x1000x26_6_0_0 : ∀ a, (![6, 0, 0] : Fin 3 → Nat) a + S1x1000x26.size a ≤ S16x1000x26.size a
  inb_S16x16x26_S1x16x26_6_0_0 : ∀ a, (![6, 0, 0] : Fin 3 → Nat) a + S1x16x26.size a ≤ S16x16x26.size a
  inb_S16x1000x26_S1x1000x26_7_0_0 : ∀ a, (![7, 0, 0] : Fin 3 → Nat) a + S1x1000x26.size a ≤ S16x1000x26.size a
  inb_S16x16x26_S1x16x26_7_0_0 : ∀ a, (![7, 0, 0] : Fin 3 → Nat) a + S1x16x26.size a ≤ S16x16x26.size a
  inb_S16x1000x26_S1x1000x26_8_0_0 : ∀ a, (![8, 0, 0] : Fin 3 → Nat) a + S1x1000x26.size a ≤ S16x1000x26.size a
  inb_S16x16x26_S1x16x26_8_0_0 : ∀ a, (![8, 0, 0] : Fin 3 → Nat) a + S1x16x26.size a ≤ S16x16x26.size a
  inb_S16x1000x26_S1x1000x26_9_0_0 : ∀ a, (![9, 0, 0] : Fin 3 → Nat) a + S1x1000x26.size a ≤ S16x1000x26.size a
  inb_S16x16x26_S1x16x26_9_0_0 : ∀ a, (![9, 0, 0] : Fin 3 → Nat) a + S1x16x26.size a ≤ S16x16x26.size a
  inb_S16x1000x26_S1x1000x26_10_0_0 : ∀ a, (![10, 0, 0] : Fin 3 → Nat) a + S1x1000x26.size a ≤ S16x1000x26.size a
  inb_S16x16x26_S1x16x26_10_0_0 : ∀ a, (![10, 0, 0] : Fin 3 → Nat) a + S1x16x26.size a ≤ S16x16x26.size a
  inb_S16x1000x26_S1x1000x26_11_0_0 : ∀ a, (![11, 0, 0] : Fin 3 → Nat) a + S1x1000x26.size a ≤ S16x1000x26.size a
  inb_S16x16x26_S1x16x26_11_0_0 : ∀ a, (![11, 0, 0] : Fin 3 → Nat) a + S1x16x26.size a ≤ S16x16x26.size a
  inb_S16x1000x26_S1x1000x26_12_0_0 : ∀ a, (![12, 0, 0] : Fin 3 → Nat) a + S1x1000x26.size a ≤ S16x1000x26.size a
  inb_S16x16x26_S1x16x26_12_0_0 : ∀ a, (![12, 0, 0] : Fin 3 → Nat) a + S1x16x26.size a ≤ S16x16x26.size a
  inb_S16x1000x26_S1x1000x26_13_0_0 : ∀ a, (![13, 0, 0] : Fin 3 → Nat) a + S1x1000x26.size a ≤ S16x1000x26.size a
  inb_S16x16x26_S1x16x26_13_0_0 : ∀ a, (![13, 0, 0] : Fin 3 → Nat) a + S1x16x26.size a ≤ S16x16x26.size a
  inb_S16x1000x26_S1x1000x26_14_0_0 : ∀ a, (![14, 0, 0] : Fin 3 → Nat) a + S1x1000x26.size a ≤ S16x1000x26.size a
  inb_S16x16x26_S1x16x26_14_0_0 : ∀ a, (![14, 0, 0] : Fin 3 → Nat) a + S1x16x26.size a ≤ S16x16x26.size a
  inb_S16x1000x26_S1x1000x26_15_0_0 : ∀ a, (![15, 0, 0] : Fin 3 → Nat) a + S1x1000x26.size a ≤ S16x1000x26.size a
  inb_S16x16x26_S1x16x26_15_0_0 : ∀ a, (![15, 0, 0] : Fin 3 → Nat) a + S1x16x26.size a ≤ S16x16x26.size a
  transposes_S4096x16x26_S4096x26x16_0_2_1 : S4096x16x26.Transposes [0, 2, 1] S4096x26x16
  dot_S16x1000_S1000x26_S16x26_1_0_0_1_n_n_wf : DotDims.WF S16x1000 S1000x26 S16x26 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1000x26.size a ≤ S4096x1000x26.size a
  hwx0_0 : ∀ i : grid0.Coords, EltTy.bits .f32 = 32 ∨ (Rect.block (s := S4096x1000x26) S16x1000x26.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1000.size a ≤ S16x1000.size a
  hwx0_1 : ∀ i : grid0.Coords, EltTy.bits .f32 = 32 ∨ (Rect.block (s := S16x1000) S16x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x16x26.size a ≤ S4096x16x26.size a
  hwx0_2 : ∀ i : grid0.Coords, EltTy.bits .f32 = 32 ∨ (Rect.block (s := S4096x16x26) S16x16x26.size (cc0_transform_2 i) (hinb0_2 i)).WholeWords (EltTy.packing .f32)

variable [Facts₀]

def dot_S16x1000_S1000x26_S16x26_1_0_0_1_n_n : DotDims S16x1000 S1000x26 S16x26 where
  lhsContracting := [1]
  rhsContracting := [0]
  lhsNonContracting := [0]
  rhsNonContracting := [1]
  lhsBatch := []
  rhsBatch := []
  wf := dot_S16x1000_S1000x26_S16x26_1_0_0_1_n_n_wf

abbrev win0_0 : Pipeline.Window sig grid0 :=
  Pipeline.Window.ofSpec (Memref.whole main_v0) S16x1000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x16x26.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x26x1000 : Shape := ⟨3, ![4096, 26, 1000]⟩
abbrev S1000x16 : Shape := ⟨2, ![1000, 16]⟩
abbrev S106496x1000 : Shape := ⟨2, ![106496, 1000]⟩
abbrev S106496x16 : Shape := ⟨2, ![106496, 16]⟩
abbrev S4096x26x16 : Shape := ⟨3, ![4096, 26, 16]⟩

abbrev nBuf : Space → Nat
  | .hbm => 5
  | .vmem => 0
  | .smem => 0
  | _ => 0

abbrev bufTy : (tb : Table) → Fin (tcTables nBuf tb) → BufTy
  | .hbm, ⟨0, _⟩ => ⟨S4096x26x1000, .f32⟩
  | .hbm, ⟨1, _⟩ => ⟨S1000x16, .f32⟩
  | .hbm, ⟨2, _⟩ => ⟨S106496x1000, .f32⟩
  | .hbm, ⟨3, _⟩ => ⟨S106496x16, .f32⟩
  | .hbm, ⟨4, _⟩ => ⟨S4096x26x16, .f32⟩
  | _, _ => ⟨S4096x26x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4096x26x1000_S106496x1000 : S4096x26x1000.ShapeCasts S106496x1000
  shapeCasts_S106496x16_S4096x26x16 : S106496x16.ShapeCasts S4096x26x16
  dot_S106496x1000_S1000x16_S106496x16_1_0_0_1_n_n_wf : DotDims.WF S106496x1000 S1000x16 S106496x16 [1] [0] [0] [1] [] []

variable [Facts₀]

def dot_S106496x1000_S1000x16_S106496x16_1_0_0_1_n_n : DotDims S106496x1000 S1000x16 S106496x16 where
  lhsContracting := [1]
  rhsContracting := [0]
  lhsNonContracting := [0]
  rhsNonContracting := [1]
  lhsBatch := []
  rhsBatch := []
  wf := dot_S106496x1000_S1000x16_S106496x16_1_0_0_1_n_n_wf

class Facts : Prop extends Facts₀ where

variable [Facts]
-- ==== Proof.Spec.lean ====
/-
  The sum of an embedding bag over dense scores. For scores `x[b, t, c]` (4096 batch rows, 26 time steps,
  1000 codes) and a table `W[c, e]` (1000 codes, 16 features) the result is

      out[b, t, e] = Σ_c x[b, t, c] · W[c, e]        (c over the 1000 codes)

  on the extended reals. The same number arranged the other way round — the table transposed to `[16, 1000]`,
  each batch row's scores transposed to `[1000, 26]`, their product a `[16, 26]` tile — is

      outT[b, e, t] = Σ_c Wt[e, c] · xt[b, c, t],

  and `outT[b, e, t] = out[b, t, e]` term by term, because the product of two extended reals commutes. No
  other law is used: the two sums run over the same codes in the same order, so nothing is moved across an
  infinity and no input needs to be finite.
-/
import Idealize.ShloMosaic.PureOps.Ideal
import Idealize.ShloMosaic.Lib.ValueIdx

noncomputable section

namespace Cert.BagSum

open Idealize.ShloMosaic Idealize.ShloMosaic.ValueIdx

/-- Scores `[4096, 26, 1000]`, the table `[1000, 16]`, the result `[4096, 26, 16]`. -/
abbrev Scores : Shape := ⟨3, ![4096, 26, 1000]⟩
abbrev Table : Shape := ⟨2, ![1000, 16]⟩
abbrev Result : Shape := ⟨3, ![4096, 26, 16]⟩
/-- The same three with their last two axes exchanged. -/
abbrev ScoresT : Shape := ⟨3, ![4096, 1000, 26]⟩
abbrev TableT : Shape := ⟨2, ![16, 1000]⟩
abbrev ResultT : Shape := ⟨3, ![4096, 16, 26]⟩

/-- `out[b, t, e] = Σ_c x[b, t, c] · W[c, e]`. -/
def bagSum (x : Scores.Idx → EReal) (W : Table.Idx → EReal) : Result.Idx → EReal :=
  fun i => ∑ c : Fin 1000, x (ix3 (i 0) (i 1) c) * W (ix2 c (i 2))

/-- `outT[b, e, t] = Σ_c Wt[e, c] · xt[b, c, t]`: the transposed table times a batch row's transposed scores. -/
def bagSumT (xt : ScoresT.Idx → EReal) (wt : TableT.Idx → EReal) : ResultT.Idx → EReal :=
  fun j => ∑ c : Fin 1000, wt (ix2 (j 1) c) * xt (ix3 (j 0) c (j 2))

/-- When `xt` and `wt` are the transposes of `x` and `W`, entry `(b, e, t)` of the transposed arrangement is entry
    `(b, t, e)` of the bag sum: each term `Wt[e, c] · xt[b, c, t]` is `x[b, t, c] · W[c, e]` with its factors exchanged. -/
theorem bagSumT_of_transposes (x : Scores.Idx → EReal) (W : Table.Idx → EReal) (xt : ScoresT.Idx → EReal) (wt : TableT.Idx → EReal)
    (hx : ∀ (b : Fin 4096) (c : Fin 1000) (t : Fin 26), xt (ix3 b c t) = x (ix3 b t c))
    (hw : ∀ (e : Fin 16) (c : Fin 1000), wt (ix2 e c) = W (ix2 c e))
    (b : Fin 4096) (e : Fin 16) (t : Fin 26) :
    bagSumT xt wt (ix3 b e t) = bagSum x W (ix3 b t e) := by
  unfold bagSumT bagSum
  refine Finset.sum_congr rfl fun c _ => ?_
  show wt (ix2 e c) * xt (ix3 b c t) = x (ix3 b t c) * W (ix2 c e)
  rw [hx, hw, mul_comm]

end Cert.BagSum

end
-- ==== Proof.RefValue.lean ====
/-
  The reference computes the bag sum. Its three steps are: view the scores `[4096, 26, 1000]` as a matrix of
  106496 rows (row `26·b + t`), multiply by the table `[1000, 16]`, view the `[106496, 16]` product as
  `[4096, 26, 16]`. Entry `(b, t, e)` of the result is therefore row `26·b + t`, column `e` of the product, that is
  `Σ_c x[b, t, c] · W[c, e]`: the row-major position of `(b, t, c)` in the scores is the position of `(26·b + t, c)` in
  the matrix, and likewise for the result.
-/
import proofs.«114161_g6932077216269_cont_sun_m_908_8_alg».proof.Proof.Gen.ReferenceIdeal.Read
import proofs.«114161_g6932077216269_cont_sun_m_908_8_alg».proof.Proof.Spec

noncomputable section

namespace Cert.ReferenceIdeal.RefValue

open Cert.ReferenceIdeal Cert.ReferenceIdeal.Read Idealize.ShloMosaic Idealize.ShloMosaic.ValueIdx

/-- Row `26·b + t` of the reshaped scores at column `c` is `x[b, t, c]`. -/
theorem scores_index (i : S4096x26x16.Idx) (k : Fin 1000) :
    idx_main_v0 (lidx_main_v1 (idx_main_v2 i) k) = ix3 (i 0) (i 1) k := by
  have h0 : (i 0).val < 4096 := (i 0).isLt
  have h1 : (i 1).val < 26 := (i 1).isLt
  have h2 : (i 2).val < 16 := (i 2).isLt
  have hk : k.val < 1000 := k.isLt
  funext a; apply Fin.ext
  match a with
  | ⟨0, _⟩ =>
    show ((((i 0).val * 26 + (i 1).val) * 16 + (i 2).val) / 16 * 1000 + k.val) / 26000 = (i 0).val
    omega
  | ⟨1, _⟩ =>
    show ((((i 0).val * 26 + (i 1).val) * 16 + (i 2).val) / 16 * 1000 + k.val) / 1000 % 26 = (i 1).val
    omega
  | ⟨2, _⟩ =>
    show ((((i 0).val * 26 + (i 1).val) * 16 + (i 2).val) / 16 * 1000 + k.val) % 1000 = k.val
    omega

/-- The table is read at row `c`, column `e`. -/
theorem table_index (i : S4096x26x16.Idx) (k : Fin 1000) :
    ridx_main_v1 (idx_main_v2 i) k = ix2 k (i 2) := by
  have h0 : (i 0).val < 4096 := (i 0).isLt
  have h1 : (i 1).val < 26 := (i 1).isLt
  have h2 : (i 2).val < 16 := (i 2).isLt
  funext a; apply Fin.ext
  match a with
  | ⟨0, _⟩ => rfl
  | ⟨1, _⟩ =>
    show (((i 0).val * 26 + (i 1).val) * 16 + (i 2).val) % 16 = (i 2).val
    omega

/-- The reference's result, index by index, is the bag sum of its two arguments. -/
theorem result_eq (x : (⟨S4096x26x1000, .f32⟩ : BufTy).Contents (Elt Ideal)) (W : (⟨S1000x16, .f32⟩ : BufTy).Contents (Elt Ideal)) :
    val_main_v2 (F := Ideal) x W = Cert.BagSum.bagSum x W := by
  funext i
  rw [val_main_v2_apply, val_main_v1_apply]
  unfold Cert.BagSum.bagSum
  refine Finset.sum_congr rfl fun k _ => ?_
  rw [val_main_v0_apply, scores_index, table_index]
  rfl

end Cert.ReferenceIdeal.RefValue

end
-- ==== Proof.KernelBlock.lean ====
/-
  What one grid point leaves in its output block. The point holds a block of sixteen batch rows of the transposed
  scores, `xb[r, c, t]` (`[16, 1000, 26]`), and the whole transposed table `wt[e, c]` (`[16, 1000]`). For each row `r` it
  multiplies the table by that row's `[1000, 26]` slab into a zero accumulator and stores the `[16, 26]` product as row `r` of
  the `[16, 16, 26]` output block. At the ideal instance a product into zero is the plain sum over the contracted axis, so
  the sixteen stores are the sixteen rows of ONE function of the block index,

      blockProd xb wt (r, e, t) = Σ_c wt[e, c] · xb[r, c, t],

  and since the sixteen rows tile the block, that function is what the block holds after the body.
-/
import proofs.«114161_g6932077216269_cont_sun_m_908_8_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen Idealize.ShloMosaic Idealize.ShloMosaic.ValueIdx

/-- Row `r` of the block is the table times row `r` of the score block. -/
def blockProd (xb : Vec Ideal S16x1000x26 .f32) (wt : Vec Ideal S16x1000 .f32) : Vec Ideal S16x16x26 .f32 :=
  fun y => ∑ c : Fin 1000, wt (ix2 (y 1) c) * xb (ix3 (y 0) c (y 2))

/-! ## The product's operand indices: `(e, c)` on the left, `(c, t)` on the right -/

theorem lhs_axis0 (i : S16x26.Idx) (q : dot_S16x1000_S1000x26_S16x26_1_0_0_1_n_n.contr.Idx) :
    (dot_S16x1000_S1000x26_S16x26_1_0_0_1_n_n.lhsIdx i q 0).val = (i 0).val := by
  unfold DotDims.lhsIdx
  rw [dif_neg (show ¬(0 : Fin S16x1000.rank) ∈ dot_S16x1000_S1000x26_S16x26_1_0_0_1_n_n.lhsBatch by decide), dif_pos (show (0 : Fin S16x1000.rank) ∈ dot_S16x1000_S1000x26_S16x26_1_0_0_1_n_n.lhsNonContracting by decide)]
  rfl
theorem lhs_axis1 (i : S16x26.Idx) (q : dot_S16x1000_S1000x26_S16x26_1_0_0_1_n_n.contr.Idx) :
    (dot_S16x1000_S1000x26_S16x26_1_0_0_1_n_n.lhsIdx i q 1).val = (q ⟨0, by decide⟩).val :=
  dot_S16x1000_S1000x26_S16x26_1_0_0_1_n_n.lhsIdx_val_of_single rfl i q
theorem rhs_axis0 (i : S16x26.Idx) (q : dot_S16x1000_S1000x26_S16x26_1_0_0_1_n_n.contr.Idx) :
    (dot_S16x1000_S1000x26_S16x26_1_0_0_1_n_n.rhsIdx i q 0).val = (q ⟨0, by decide⟩).val :=
  dot_S16x1000_S1000x26_S16x26_1_0_0_1_n_n.rhsIdx_val_of_single rfl i q
theorem rhs_axis1 (i : S16x26.Idx) (q : dot_S16x1000_S1000x26_S16x26_1_0_0_1_n_n.contr.Idx) :
    (dot_S16x1000_S1000x26_S16x26_1_0_0_1_n_n.rhsIdx i q 1).val = (i 1).val := by
  unfold DotDims.rhsIdx
  rw [dif_neg (show ¬(1 : Fin S1000x26.rank) ∈ dot_S16x1000_S1000x26_S16x26_1_0_0_1_n_n.rhsBatch by decide), dif_pos (show (1 : Fin S1000x26.rank) ∈ dot_S16x1000_S1000x26_S16x26_1_0_0_1_n_n.rhsNonContracting by decide)]
  rfl

/-- The `[16, 1000] × [1000, 26]` product into a zero accumulator, at `(e, t)`, is `Σ_c l[e, c] · r[c, t]`. -/
theorem product_apply (l : FVec Ideal S16x1000 .f32) (r : FVec Ideal S1000x26 .f32) (i : S16x26.Idx) :
    matmul dot_S16x1000_S1000x26_S16x26_1_0_0_1_n_n none l r (constant (F := Ideal) S16x26 .f32 0x00000000#32) i
      = ∑ k : Fin 1000, l (ix2 (i 0) k) * r (ix2 k (i 1)) := by
  simp only [matmul]
  rw [Ideal.matmul_constant_zero_apply, ← Equiv.sum_comp (ValueIdx.contrEquiv1 dot_S16x1000_S1000x26_S16x26_1_0_0_1_n_n 1000 rfl rfl).symm]
  refine Finset.sum_congr rfl fun k _ => ?_
  have hk := ValueIdx.contrEquiv1_symm_val dot_S16x1000_S1000x26_S16x26_1_0_0_1_n_n 1000 rfl rfl k
  have el : dot_S16x1000_S1000x26_S16x26_1_0_0_1_n_n.lhsIdx i ((ValueIdx.contrEquiv1 dot_S16x1000_S1000x26_S16x26_1_0_0_1_n_n 1000 rfl rfl).symm k) = ix2 (i 0) k := funext fun a => Fin.ext (by
    match a with
    | ⟨0, _⟩ => exact lhs_axis0 _ _
    | ⟨1, _⟩ => exact (lhs_axis1 _ _).trans hk)
  have er : dot_S16x1000_S1000x26_S16x26_1_0_0_1_n_n.rhsIdx i ((ValueIdx.contrEquiv1 dot_S16x1000_S1000x26_S16x26_1_0_0_1_n_n 1000 rfl rfl).symm k) = ix2 k (i 1) := funext fun a => Fin.ext (by
    match a with
    | ⟨0, _⟩ => exact (rhs_axis0 _ _).trans hk
    | ⟨1, _⟩ => exact rhs_axis1 _ _)
  rw [el, er]
  rfl

/-! ## One store -/

theorem zero2 : (![0, 0] : Fin 2 → Nat) = fun _ => 0 := funext fun a => by fin_cases a <;> rfl

/-- The store of row `r` at explicit coordinates: the table (loaded whole) times the slab loaded at row `r` of the
    score block, viewed as a `[1, 16, 26]` piece, holds at `(0, e, t)` the block function at `(r, e, t)`. -/
theorem row_store_at (r : Nat) (hr : r < 16)
    (inbx : ∀ a, (![r, 0, 0] : Fin 3 → Nat) a + S1x1000x26.size a ≤ S16x1000x26.size a)
    (x0 : Vec Ideal S16x1000x26 .f32) (x1 : Vec Ideal S16x1000 .f32) (z : Fin 1) (e : Fin 16) (t : Fin 26) :
    shapeCast S1x16x26 (matmul dot_S16x1000_S1000x26_S16x26_1_0_0_1_n_n none
        (shapeCast S16x1000 (View.ld x1 r0_0) shapeCasts_S16x1000_S16x1000 : FVec Ideal S16x1000 .f32)
        (shapeCast S1000x26 (View.ld x0 (Rect.unit (s := S16x1000x26) ![r, 0, 0] S1x1000x26.size inbx)) shapeCasts_S1x1000x26_S1000x26 : FVec Ideal S1000x26 .f32)
        (constant (F := Ideal) S16x26 .f32 0x00000000#32)) shapeCasts_S16x26_S1x16x26 (ix3 z e t)
      = blockProd x0 x1 (ix3 ⟨r, hr⟩ e t) := by
  have ex : (fun a : Fin 2 => (ix3 z e t : S1x16x26.Idx) a.succ) = (ix2 e t : S16x26.Idx) :=
    funext fun a => by match a with | ⟨0, _⟩ => rfl | ⟨1, _⟩ => rfl
  refine ((shapeCast_addUnit_apply ![16, 26] _ shapeCasts_S16x26_S1x16x26 (ix3 z e t)).trans (congrArg _ ex)).trans ?_
  refine (product_apply _ _ (ix2 e t)).trans ?_
  unfold blockProd
  refine Finset.sum_congr rfl fun k _ => ?_
  have hl : (shapeCast S16x1000 (View.ld x1 r0_0) shapeCasts_S16x1000_S16x1000 : FVec Ideal S16x1000 .f32) (ix2 e k) = x1 (ix2 e k) :=
    (congrFun (shapeCast_self _ _) _).trans (congrFun (View.ld_unit_zero (S := S16x1000) zero2 inb_S16x1000_S16x1000_0_0 x1) _)
  have hrr : (shapeCast S1000x26 (View.ld x0 (Rect.unit (s := S16x1000x26) ![r, 0, 0] S1x1000x26.size inbx)) shapeCasts_S1x1000x26_S1000x26 : FVec Ideal S1000x26 .f32) (ix2 k t)
      = x0 (ix3 ⟨r, hr⟩ k t) := by
    refine (shapeCast_dropUnit_apply ![1000, 26] _ shapeCasts_S1x1000x26_S1000x26 (ix2 k t)).trans ?_
    refine congrArg x0 (funext fun a => Fin.ext ?_)
    match a with
    | ⟨0, _⟩ => show r + 1 * 0 = r; omega
    | ⟨1, _⟩ => show 0 + 1 * k.val = k.val; omega
    | ⟨2, _⟩ => show 0 + 1 * t.val = t.val; omega
  exact congrArg₂ (· * ·) hl hrr

/-- The same at any index of the piece, placed in the block by the piece's rectangle. -/
theorem row_store (r : Nat)
    (inbx : ∀ a, (![r, 0, 0] : Fin 3 → Nat) a + S1x1000x26.size a ≤ S16x1000x26.size a)
    (inbo : ∀ a, (![r, 0, 0] : Fin 3 → Nat) a + S1x16x26.size a ≤ S16x16x26.size a)
    (x0 : Vec Ideal S16x1000x26 .f32) (x1 : Vec Ideal S16x1000 .f32) (x : S1x16x26.Idx) :
    shapeCast S1x16x26 (matmul dot_S16x1000_S1000x26_S16x26_1_0_0_1_n_n none
        (shapeCast S16x1000 (View.ld x1 r0_0) shapeCasts_S16x1000_S16x1000 : FVec Ideal S16x1000 .f32)
        (shapeCast S1000x26 (View.ld x0 (Rect.unit (s := S16x1000x26) ![r, 0, 0] S1x1000x26.size inbx)) shapeCasts_S1x1000x26_S1000x26 : FVec Ideal S1000x26 .f32)
        (constant (F := Ideal) S16x26 .f32 0x00000000#32)) shapeCasts_S16x26_S1x16x26 x
      = blockProd x0 x1 ((Rect.unit (s := S16x16x26) ![r, 0, 0] S1x16x26.size inbo).emb x) := by
  have hr : r < 16 := by have := inbo 0; show r < 16; exact this
  obtain ⟨z, e, t, rfl⟩ : ∃ (z : Fin 1) (e : Fin 16) (t : Fin 26), x = ix3 z e t := ⟨x 0, x 1, x 2, eq_ix3 x⟩
  have hz : z.val < 1 := z.isLt
  refine (row_store_at r hr inbx x0 x1 z e t).trans (congrArg (blockProd x0 x1) ?_)
  funext a; apply Fin.ext
  match a with
  | ⟨0, _⟩ => show r = r + 1 * z.val; omega
  | ⟨1, _⟩ => show e.val = 0 + 1 * e.val; omega
  | ⟨2, _⟩ => show t.val = 0 + 1 * t.val; omega

/-! ## The sixteen stores together -/

/-- What the body leaves in the output block: the block function of the two input blocks. -/
theorem out_eq (x0 : Vec Ideal S16x1000x26 .f32) (x1 : Vec Ideal S16x1000 .f32) :
    out0_2 (F := Ideal) x0 x1 = blockProd x0 x1 := by
  funext y
  unfold out0_2
  refine View.canon_apply_of_pieces (blockProd x0 x1) _ ?_ y (cover0_2 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact row_store 15 (by decide) (by decide) x0 x1
  · exact row_store 14 (by decide) (by decide) x0 x1
  · exact row_store 13 (by decide) (by decide) x0 x1
  · exact row_store 12 (by decide) (by decide) x0 x1
  · exact row_store 11 (by decide) (by decide) x0 x1
  · exact row_store 10 (by decide) (by decide) x0 x1
  · exact row_store 9 (by decide) (by decide) x0 x1
  · exact row_store 8 (by decide) (by decide) x0 x1
  · exact row_store 7 (by decide) (by decide) x0 x1
  · exact row_store 6 (by decide) (by decide) x0 x1
  · exact row_store 5 (by decide) (by decide) x0 x1
  · exact row_store 4 (by decide) (by decide) x0 x1
  · exact row_store 3 (by decide) (by decide) x0 x1
  · exact row_store 2 (by decide) (by decide) x0 x1
  · exact row_store 1 (by decide) (by decide) x0 x1
  · exact row_store 0 (by decide) (by decide) x0 x1

end Cert.KernelIdeal.Block

end
-- ==== Proof.KernelArray.lean ====
/-
  From blocks to the array. Grid point `n` (of 256) holds batch rows `16·n … 16·n + 15`: its score block is rows
  `16·n + r` of the transposed scores, its table block is the whole transposed table (block index zero on both axes), and
  its output block is rows `16·n + r` of the `[4096, 16, 26]` product array. So what point `n` writes back is block `n`
  of ONE function of the two arrays the region finds,

      bagSumT xt wt (b, e, t) = Σ_c wt[e, c] · xt[b, c, t],

  and since row `b` lies in the block of point `b / 16`, the 256 blocks cover the array: after the run the product array
  holds `bagSumT` of the transposed scores and the transposed table.
-/
import proofs.«114161_g6932077216269_cont_sun_m_908_8_alg».proof.Proof.KernelBlock
import proofs.«114161_g6932077216269_cont_sun_m_908_8_alg».proof.Proof.Spec

set_option maxRecDepth 16384

noncomputable section

namespace Cert.KernelIdeal.Block

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The transposed scores and the transposed table as the region finds them, at their literal types. -/
abbrev scoresT (c : Dev nD) : Vec Ideal S4096x1000x26 .f32 := V m c main_v0
abbrev tableT (c : Dev nD) : Vec Ideal S16x1000 .f32 := V m c main_v1

/-- The block indices at point `n`: the scores' and the result's blocks move along the batch axis with the point, the
    table's block is the whole table. -/
theorem block_indices : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `n` WRITES BACK is block `n` of `bagSumT` of the transposed scores and the transposed table. -/
theorem flushed_eq (c : Dev nD) (t : Fin cfg0.N) :
    (dats m 0 c).flushed 2 t
      = ((cfg0.win 2).blk t).view.read (Elt Ideal) (Cert.BagSum.bagSumT (scoresT m c) (tableT m c)) := by
  show (cfg0.win 2).cut (grid0.coords t) ((dats m 0 c).after 2 t) = _
  rw [after0_2, out_eq (iblk m c 0 t) (iblk m c 1 t)]
  obtain ⟨e00, e01, e02, e10, e11, e20, e21, e22⟩ := block_indices t
  funext y
  have hy0 : (y 0).val < 16 := (y 0).isLt
  have hy1 : (y 1).val < 16 := (y 1).isLt
  have hy2 : (y 2).val < 26 := (y 2).isLt
  show (∑ k : Fin 1000, tableT m c (((cfg0.win 1).blk t).view.emb (ix2 (y 1) k)) * scoresT m c (((cfg0.win 0).blk t).view.emb (ix3 (y 0) k (y 2))))
    = ∑ k : Fin 1000, tableT m c (ix2 ((((cfg0.win 2).blk t).view.emb y) 1) k) * scoresT m c (ix3 ((((cfg0.win 2).blk t).view.emb y) 0) k ((((cfg0.win 2).blk t).view.emb y) 2))
  refine Finset.sum_congr rfl fun k _ => ?_
  have hk : k.val < 1000 := k.isLt
  refine congrArg₂ (· * ·) (congrArg (tableT m c) ?_) (congrArg (scoresT m c) ?_)
  · funext a; apply Fin.ext
    match a with
    | ⟨0, _⟩ => show win0_1.index t (0 : Fin 2) * 16 + 1 * (y 1).val = win0_2.index t (1 : Fin 3) * 16 + 1 * (y 1).val; omega
    | ⟨1, _⟩ => show win0_1.index t (1 : Fin 2) * 1000 + 1 * k.val = k.val; omega
  · funext a; apply Fin.ext
    match a with
    | ⟨0, _⟩ => show win0_0.index t (0 : Fin 3) * 16 + 1 * (y 0).val = win0_2.index t (0 : Fin 3) * 16 + 1 * (y 0).val; omega
    | ⟨1, _⟩ => show win0_0.index t (1 : Fin 3) * 1000 + 1 * k.val = k.val; omega
    | ⟨2, _⟩ => show win0_0.index t (2 : Fin 3) * 26 + 1 * (y 2).val = win0_2.index t (2 : Fin 3) * 26 + 1 * (y 2).val; omega

/-- An index of the product array is in point `n`'s block iff each coordinate is in the block's range on its axis. -/
theorem mem_block (t : Fin cfg0.N) (i : S4096x16x26.Idx) :
    i ∈ ((cfg0.win 2).blk t).view.set ↔ ∀ a : Fin 3, win0_2.index t a * S16x16x26.size a ≤ (i a).val ∧ (i a).val < win0_2.index t a * S16x16x26.size a + S16x16x26.size a := by
  show i ∈ ((View.whole main_v2).slice (win0_2.rect t)).set ↔ _
  rw [View.set_slice_whole, Rect.mem_set_unit]
  exact Iff.rfl

/-- Batch row `b` is in the block of point `b / 16`: the blocks cover the array. -/
theorem covered (i : S4096x16x26.Idx) :
    ∃ t : Fin cfg0.N, (cfg0.win 2).flush t = true ∧ i ∈ ((cfg0.win 2).blk t).view.set := by
  have h0 : (i 0).val < 4096 := (i 0).isLt
  have h1 : (i 1).val < 16 := (i 1).isLt
  have h2 : (i 2).val < 26 := (i 2).isLt
  have hN : (i 0).val / 16 < cfg0.N := by show (i 0).val / 16 < grid0.N; rw [N_0]; omega
  refine ⟨⟨(i 0).val / 16, hN⟩, flush0_2 _, ?_⟩
  rw [mem_block]
  obtain ⟨e00, e01, e02, e10, e11, e20, e21, e22⟩ := block_indices ⟨(i 0).val / 16, hN⟩
  have e20' : win0_2.index ⟨(i 0).val / 16, hN⟩ (0 : Fin 3) = (i 0).val / 16 := e20
  intro a
  match a with
  | ⟨0, _⟩ => show win0_2.index ⟨(i 0).val / 16, hN⟩ (0 : Fin 3) * 16 ≤ (i 0).val ∧ (i 0).val < win0_2.index ⟨(i 0).val / 16, hN⟩ (0 : Fin 3) * 16 + 16; omega
  | ⟨1, _⟩ => show win0_2.index ⟨(i 0).val / 16, hN⟩ (1 : Fin 3) * 16 ≤ (i 1).val ∧ (i 1).val < win0_2.index ⟨(i 0).val / 16, hN⟩ (1 : Fin 3) * 16 + 16; omega
  | ⟨2, _⟩ => show win0_2.index ⟨(i 0).val / 16, hN⟩ (2 : Fin 3) * 26 ≤ (i 2).val ∧ (i 2).val < win0_2.index ⟨(i 0).val / 16, hN⟩ (2 : Fin 3) * 26 + 26; omega

/-- THE PRODUCT ARRAY after the run. -/
theorem product_array (c : Dev nD) :
    (dats m 0 c).arrAt 2 cfg0.N = Cert.BagSum.bagSumT (scoresT m c) (tableT m c) :=
  (dats m 0 c).arrAt_eq_of_cover 2 _ (fun t _ => flushed_eq m c t) covered

end Cert.KernelIdeal.Block

end
-- ==== Proof.KernelRun.lean ====
/-
  The host lines around the region, and the kernel's run. Before the region the program transposes the scores to
  `xt[b, c, t] = x[b, t, c]` and the table to `wt[e, c] = W[c, e]`; the region fills the product array with
  `Σ_c wt[e, c] · xt[b, c, t]` at `(b, e, t)`; after it the program transposes the product array's last two axes. Entry
  `(b, t, e)` of the result is therefore entry `(b, e, t)` of the product array, `Σ_c W[c, e] · x[b, t, c]`, which is the
  bag sum `Σ_c x[b, t, c] · W[c, e]` with each term's two factors exchanged.
-/
import proofs.«114161_g6932077216269_cont_sun_m_908_8_alg».proof.Proof.KernelArray
import Idealize.ShloMosaic.Lib.StableHlo.Run

set_option maxRecDepth 16384

noncomputable section

namespace Cert.KernelIdeal.Block

open Cert.KernelIdeal Cert.KernelIdeal.Gen Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The two argument arrays as launched, at their literal types. -/
abbrev scores (c : Dev nD) : Vec Ideal S4096x26x1000 .f32 := m ((c : Thread nD τ).loc main_arg0)
abbrev table (c : Dev nD) : Vec Ideal S1000x16 .f32 := m ((c : Thread nD τ).loc main_arg1)

/-- The region finds the scores with their last two axes exchanged. -/
theorem scoresT_eq (c : Dev nD) :
    scoresT m c = transpose S4096x1000x26 [0, 2, 1] (scores m c) transposes_S4096x26x1000_S4096x1000x26_0_2_1 := by
  show StableHlo.after hostOps0 (fun b => m (c, b)) (Proc.devRef .tc main_v0) = _
  after_results

/-- And the table transposed. -/
theorem tableT_eq (c : Dev nD) :
    tableT m c = transpose S16x1000 [1, 0] (table m c) transposes_S1000x16_S16x1000_1_0 := by
  show StableHlo.after hostOps0 (fun b => m (c, b)) (Proc.devRef .tc main_v1) = _
  after_results

/-- `xt[b, c, t] = x[b, t, c]`. -/
theorem scoresT_apply (c : Dev nD) (b : Fin 4096) (k : Fin 1000) (t : Fin 26) :
    scoresT m c (ix3 b k t) = scores m c (ix3 b t k) := by
  rw [scoresT_eq]
  exact transpose_apply [0, 2, 1] (scores m c) transposes_S4096x26x1000_S4096x1000x26_0_2_1 (ix3 b k t) (ix3 b t k)
    (fun a => match a with | ⟨0, _⟩ => rfl | ⟨1, _⟩ => rfl | ⟨2, _⟩ => rfl)

/-- `wt[e, c] = W[c, e]`. -/
theorem tableT_apply (c : Dev nD) (e : Fin 16) (k : Fin 1000) :
    tableT m c (ix2 e k) = table m c (ix2 k e) := by
  rw [tableT_eq]
  exact transpose_apply [1, 0] (table m c) transposes_S1000x16_S16x1000_1_0 (ix2 e k) (ix2 k e)
    (fun a => match a with | ⟨0, _⟩ => rfl | ⟨1, _⟩ => rfl)

/-- The program's result as the lines after the region leave it, at its literal type. -/
abbrev result (c : Dev nD) : Vec Ideal S4096x26x16 .f32 :=
  Pipeline.afterTail₀ cfgs (dats m) 0 (V0 m) [hostOps1] c main_v3

/-- The result is the product array with its last two axes exchanged. -/
theorem result_transposed (c : Dev nD) :
    result m c = transpose S4096x26x16 [0, 2, 1] (Cert.BagSum.bagSumT (scoresT m c) (tableT m c)) transposes_S4096x16x26_S4096x26x16_0_2_1 := by
  unfold result Pipeline.afterTail₀
  show StableHlo.after hostOps1 _ (Proc.devRef .tc main_v3) = _
  after_results
  exact congrArg (fun v => transpose S4096x26x16 [0, 2, 1] v transposes_S4096x16x26_S4096x26x16_0_2_1)
    ((Pipeline.withArrays_arr spec0 launch0.win.arr_inj c _ _ 2).trans (product_array m c))

/-- THE RESULT, index by index, is the bag sum of the two arguments. -/
theorem result_eq (c : Dev nD) : result m c = Cert.BagSum.bagSum (scores m c) (table m c) := by
  funext i
  obtain ⟨b, t, e, rfl⟩ : ∃ (b : Fin 4096) (t : Fin 26) (e : Fin 16), i = ix3 b t e := ⟨i 0, i 1, i 2, eq_ix3 i⟩
  rw [result_transposed]
  refine (transpose_apply [0, 2, 1] (Cert.BagSum.bagSumT (scoresT m c) (tableT m c)) transposes_S4096x16x26_S4096x26x16_0_2_1 (ix3 b t e) (ix3 b e t)
    (fun a => match a with | ⟨0, _⟩ => rfl | ⟨1, _⟩ => rfl | ⟨2, _⟩ => rfl)).trans ?_
  exact Cert.BagSum.bagSumT_of_transposes (scores m c) (table m c) (scoresT m c) (tableT m c)
    (scoresT_apply m c) (tableT_apply m c) b e t

/-- THE RUN: every weakly fair execution of the program terminates with its result at the bag sum of the two arguments
    and the arguments unchanged. -/
theorem run : θ_run defs (onTc (τ := τ) (main (F := Ideal))) ⟨m, fun _ => 0, ρ⟩ fun r => ∀ c : Dev nD,
      r.2.mem ((c.tc : Thread nD τ).loc main_v3) = Cert.BagSum.bagSum (scores m c) (table m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Block

end
-- ==== Proof.lean ====
/-
  The kernel sums an embedding bag over dense scores: `out[b, t, e] = Σ_c x[b, t, c] · W[c, e]` for scores
  `x : [4096, 26, 1000]` and a table `W : [1000, 16]`.

  The reference views the scores as a `[106496, 1000]` matrix, multiplies by the table and views the product as
  `[4096, 26, 16]` (Proof/RefValue.lean). The kernel transposes the scores to `[4096, 1000, 26]` and the table to
  `[16, 1000]`, and on a grid of 256 points, sixteen batch rows each, stores per row the `[16, 26]` product of the transposed
  table with that row's `[1000, 26]` slab (Proof/KernelBlock.lean: the sixteen stores of a point are one function of the
  block index; Proof/KernelArray.lean: the 256 blocks cover the `[4096, 16, 26]` product array), then transposes the product
  array back (Proof/KernelRun.lean). On the extended reals both results are the same sum over the 1000 codes, term by
  term up to the order of the two factors of each term (Proof/Spec.lean): the only law used is that the product commutes,
  so the precondition is never opened.

  The three frames are the generated ones (the reference's is its generated run with the result dropped), and the
  idealization rewrote no operation, so `preserves` has nothing to state.
-/
import proofs.«114161_g6932077216269_cont_sun_m_908_8_alg».proof.Defs
import proofs.«114161_g6932077216269_cont_sun_m_908_8_alg».proof.Proof.Gen.Kernel
import proofs.«114161_g6932077216269_cont_sun_m_908_8_alg».proof.Proof.Gen.Kernel.Skeleton
import proofs.«114161_g6932077216269_cont_sun_m_908_8_alg».proof.Proof.Gen.Kernel.Launch
import proofs.«114161_g6932077216269_cont_sun_m_908_8_alg».proof.Proof.Gen.Kernel.Points
import proofs.«114161_g6932077216269_cont_sun_m_908_8_alg».proof.Proof.Gen.Kernel.Frame
import proofs.«114161_g6932077216269_cont_sun_m_908_8_alg».proof.Proof.Gen.KernelIdeal
import proofs.«114161_g6932077216269_cont_sun_m_908_8_alg».proof.Proof.Gen.KernelIdeal.Skeleton
import proofs.«114161_g6932077216269_cont_sun_m_908_8_alg».proof.Proof.Gen.KernelIdeal.Launch
import proofs.«114161_g6932077216269_cont_sun_m_908_8_alg».proof.Proof.Gen.KernelIdeal.Points
import proofs.«114161_g6932077216269_cont_sun_m_908_8_alg».proof.Proof.Gen.KernelIdeal.Frame
import proofs.«114161_g6932077216269_cont_sun_m_908_8_alg».proof.Proof.Gen.ReferenceIdeal
import proofs.«114161_g6932077216269_cont_sun_m_908_8_alg».proof.Proof.Gen.Pre_finite_inputs
import proofs.«114161_g6932077216269_cont_sun_m_908_8_alg».proof.Proof.Gen.ReferenceIdeal.Run
import proofs.«114161_g6932077216269_cont_sun_m_908_8_alg».proof.Proof.Gen.ReferenceIdeal.Read
import proofs.«114161_g6932077216269_cont_sun_m_908_8_alg».proof.Proof.Spec
import proofs.«114161_g6932077216269_cont_sun_m_908_8_alg».proof.Proof.RefValue
import proofs.«114161_g6932077216269_cont_sun_m_908_8_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference's run, its result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- From memories that agree on the scores and the table, the idealized kernel and the idealized reference both end with
    the bag sum of those two arrays as their result. -/
theorem algebraic : Cert.algebraic_KernelIdeal_ReferenceIdeal := by
  intro m ρ m' ρ' _ hagree
  refine ⟨fun c => Cert.BagSum.bagSum (Cert.KernelIdeal.Block.scores m c) (Cert.KernelIdeal.Block.table m c),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
